-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_

variable [Facts]

def fn_part1 {F : FTy → Type} [FloatOps F] (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  main_v18

def fn {F : FTy → Type} [FloatOps F] (main_arg0 : FVec F S128x3x224x224 .f32) (main_arg1 : FVec F S768x768 .f32) (main_arg2 : FVec F S768 .f32) (main_arg3 : FVec F S1x768 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_v13 main_v16
-- ==== Kernel.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S25088x768 : Shape := ⟨2, ![25088, 768]⟩
abbrev S1568x768 : Shape := ⟨2, ![1568, 768]⟩
abbrev S1x1x768 : Shape := ⟨3, ![1, 1, 768]⟩
abbrev S128x1x768 : Shape := ⟨3, ![128, 1, 768]⟩
abbrev S128x197x768 : Shape := ⟨3, ![128, 197, 768]⟩

abbrev nBuf : Space → Nat
  | .hbm => 13
  | .vmem => 6
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S128x3x14x16x14x16, .f32⟩
  | .hbm, ⟨5, _⟩ => ⟨S128x14x14x3x16x16, .f32⟩
  | .hbm, ⟨6, _⟩ => ⟨S128x196x768, .f32⟩
  | .hbm, ⟨7, _⟩ => ⟨S25088x768, .f32⟩
  | .hbm, ⟨8, _⟩ => ⟨S25088x768, .f32⟩
  | .hbm, ⟨9, _⟩ => ⟨S128x196x768, .f32⟩
  | .hbm, ⟨10, _⟩ => ⟨S1x1x768, .f32⟩
  | .hbm, ⟨11, _⟩ => ⟨S128x1x768, .f32⟩
  | .hbm, ⟨12, _⟩ => ⟨S128x197x768, .f32⟩
  | .local _ .vmem, ⟨0, _⟩ => ⟨S1568x768, .f32⟩
  | .local _ .vmem, ⟨1, _⟩ => ⟨S1568x768, .f32⟩
  | .local _ .vmem, ⟨2, _⟩ => ⟨S768x768, .f32⟩
  | .local _ .vmem, ⟨3, _⟩ => ⟨S768, .f32⟩
  | .local _ .vmem, ⟨4, _⟩ => ⟨S1568x768, .f32⟩
  | .local _ .vmem, ⟨5, _⟩ => ⟨S1568x768, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1568x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  shapeCasts_S128x196x768_S25088x768 : S128x196x768.ShapeCasts S25088x768
  inb_S1568x768_S1568x768_0_0 : ∀ a, (![0, 0] : Fin 2 → Nat) a + S1568x768.size a ≤ S1568x768.size a
  h_S1568x768 : 0 < S1568x768.numel
  shapeCasts_S1568x768_S1568x768 : S1568x768.ShapeCasts S1568x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S1568x768 : S1x768.Broadcasts S1568x768
  shapeCasts_S25088x768_S128x196x768 : S25088x768.ShapeCasts S128x196x768
  bcast_S1x768_S1x1x768_1_2 : S1x768.BroadcastsInDim S1x1x768 (![1, 2] : Fin 2 → Fin S1x1x768.rank)
  bcast_S1x1x768_S128x1x768_0_1_2 : S1x1x768.BroadcastsInDim S128x1x768 (![0, 1, 2] : Fin 3 → Fin S128x1x768.rank)
  concatenates_S128x1x768_S128x196x768_S128x197x768_d1 : Shape.Concatenates [S128x1x768, S128x196x768] S128x197x768 1
  dot_S1568x768_S768x768_S1568x768_1_1_0_0_n_n_wf : DotDims.WF S1568x768 S768x768 S1568x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x768.size a ≤ S25088x768.size a
  hwx0_0 : ∀ i : grid0.Coords, EltTy.bits .f32 = 32 ∨ (Rect.block (s := S25088x768) S1568x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1568x768.size a ≤ S25088x768.size a
  hwx0_3 : ∀ i : grid0.Coords, EltTy.bits .f32 = 32 ∨ (Rect.block (s := S25088x768) S1568x768.size (cc0_transform_3 i) (hinb0_3 i)).WholeWords (EltTy.packing .f32)

variable [Facts₀]

def dot_S1568x768_S768x768_S1568x768_1_1_0_0_n_n : DotDims S1568x768 S768x768 S1568x768 where
  lhsContracting := [1]
  rhsContracting := [1]
  lhsNonContracting := [0]
  rhsNonContracting := [0]
  lhsBatch := []
  rhsBatch := []
  wf := dot_S1568x768_S768x768_S1568x768_1_1_0_0_n_n_wf

abbrev win0_0 : Pipeline.Window sig grid0 :=
  Pipeline.Window.ofSpec (Memref.whole main_v3) S1568x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1568x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S1x1x768 : Shape := ⟨3, ![1, 1, 768]⟩
abbrev S128x1x768 : Shape := ⟨3, ![128, 1, 768]⟩
abbrev S128x197x768 : Shape := ⟨3, ![128, 197, 768]⟩

abbrev nBuf : Space → Nat
  | .hbm => 14
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S128x3x14x16x14x16, .f32⟩
  | .hbm, ⟨5, _⟩ => ⟨S128x14x14x3x16x16, .f32⟩
  | .hbm, ⟨6, _⟩ => ⟨S128x196x768, .f32⟩
  | .hbm, ⟨7, _⟩ => ⟨S128x196x768, .f32⟩
  | .hbm, ⟨8, _⟩ => ⟨S1x1x768, .f32⟩
  | .hbm, ⟨9, _⟩ => ⟨S128x196x768, .f32⟩
  | .hbm, ⟨10, _⟩ => ⟨S128x196x768, .f32⟩
  | .hbm, ⟨11, _⟩ => ⟨S1x1x768, .f32⟩
  | .hbm, ⟨12, _⟩ => ⟨S128x1x768, .f32⟩
  | .hbm, ⟨13, _⟩ => ⟨S128x197x768, .f32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  bcast_S1x768_S1x1x768_1_2 : S1x768.BroadcastsInDim S1x1x768 (![1, 2] : Fin 2 → Fin S1x1x768.rank)
  bcast_S1x1x768_S128x1x768_0_1_2 : S1x1x768.BroadcastsInDim S128x1x768 (![0, 1, 2] : Fin 3 → Fin S128x1x768.rank)
  concatenates_S128x1x768_S128x196x768_S128x197x768_d1 : Shape.Concatenates [S128x1x768, S128x196x768] S128x197x768 1
  dot_S128x196x768_S768x768_S128x196x768_2_1_01_0_n_n_wf : DotDims.WF S128x196x768 S768x768 S128x196x768 [2] [1] [0, 1] [0] [] []

variable [Facts₀]

def dot_S128x196x768_S768x768_S128x196x768_2_1_01_0_n_n : DotDims S128x196x768 S768x768 S128x196x768 where
  lhsContracting := [2]
  rhsContracting := [1]
  lhsNonContracting := [0, 1]
  rhsNonContracting := [0]
  lhsBatch := []
  rhsBatch := []
  wf := dot_S128x196x768_S768x768_S128x196x768_2_1_01_0_n_n_wf

class Facts : Prop extends Facts₀ where

variable [Facts]
-- ==== Proof.AffineRows.lean ====
/-
  The arithmetic both programs compute, stated once over plain arrays of extended reals.

  A matrix `X` of `R` rows of 768 features is sent through a linear layer: row `r`, output feature `h` is
  `Σ_k X[r, k] · W[h, k] + b[h]` (the weight is stored [out, in], so the contraction runs over the SECOND axis of both).
  The kernel applies this to the 25088 = 128 · 196 patch rows laid flat, block of 1568 rows by block; the reference to the
  patches kept as [128, 196, 768]. A row-major reshape [128, 196, 768] → [25088, 768] sends (n, p, k) to (196 n + p, k), and
  the reshape back sends (196 n + p, h) to (n, p, h), so flattening, applying the layer, and unflattening is the layer
  applied along the last axis: `unflatten_affineRows`. Only re-indexing is involved: no law of the extended reals.
-/
import Idealize.ShloMosaic.PureOps.Ideal
import Idealize.ShloMosaic.PureOps.Ideal.Laws
import Idealize.ShloMosaic.Lib.ValueIdx
import Idealize.ShloMosaic.Lib.Pipeline.Value

noncomputable section

namespace Cert.PatchEmbed

open Idealize.ShloMosaic Idealize.ShloMosaic.ValueIdx

/-- One entry of the linear layer: row `r` of `X` against row `h` of the weight, plus the bias at `h`. -/
def affineAt {R : Nat} (X : FVec Ideal ⟨2, ![R, 768]⟩ .f32) (W : FVec Ideal ⟨2, ![768, 768]⟩ .f32)
    (b : FVec Ideal ⟨1, ![768]⟩ .f32) (r : Fin R) (h : Fin 768) : Ideal .f32 :=
  (∑ k : Fin 768, X (ix2 r k) * W (ix2 h k)) + b (ix1 h)

/-- The linear layer on every row: `X Wᵀ + b`, as one array. -/
def affineRows {R : Nat} (X : FVec Ideal ⟨2, ![R, 768]⟩ .f32) (W : FVec Ideal ⟨2, ![768, 768]⟩ .f32)
    (b : FVec Ideal ⟨1, ![768]⟩ .f32) : FVec Ideal ⟨2, ![R, 768]⟩ .f32 :=
  fun j => affineAt X W b (j 0) (j 1)

theorem affineRows_ix2 {R : Nat} (X : FVec Ideal ⟨2, ![R, 768]⟩ .f32) (W : FVec Ideal ⟨2, ![768, 768]⟩ .f32)
    (b : FVec Ideal ⟨1, ![768]⟩ .f32) (r : Fin R) (h : Fin 768) :
    affineRows X W b (ix2 r h) = affineAt X W b r h := rfl

/-- Flatten the patches [128, 196, 768] to rows [25088, 768], apply the layer, cut the rows back into [128, 196, 768]:
    entry (n, p, h) is patch (n, p) against weight row `h`, plus the bias — row 196 n + p of the flat array IS patch (n, p). -/
theorem unflatten_affineRows (P : FVec Ideal ⟨3, ![128, 196, 768]⟩ .f32) (W : FVec Ideal ⟨2, ![768, 768]⟩ .f32)
    (b : FVec Ideal ⟨1, ![768]⟩ .f32)
    (h1 : (⟨3, ![128, 196, 768]⟩ : Shape).ShapeCasts ⟨2, ![25088, 768]⟩)
    (h2 : (⟨2, ![25088, 768]⟩ : Shape).ShapeCasts ⟨3, ![128, 196, 768]⟩)
    (n : Fin 128) (p : Fin 196) (h : Fin 768) :
    shapeCast ⟨3, ![128, 196, 768]⟩ (affineRows (shapeCast ⟨2, ![25088, 768]⟩ P h1) W b) h2 (ix3 n p h)
      = (∑ k : Fin 768, P (ix3 n p k) * W (ix2 h k)) + b (ix1 h) := by
  have hn := n.isLt
  have hp := p.isLt
  have hr : n.val * 196 + p.val < 25088 := by omega
  rw [shapeCast_apply _ h2 (ix3 n p h) (ix2 (⟨n.val * 196 + p.val, hr⟩ : Fin 25088) h) (by
    rw [Shape.rowMajor_val_two, Shape.rowMajor_val_three]; rfl)]
  rw [affineRows_ix2]
  unfold affineAt
  refine congrArg (· + b (ix1 h)) (Finset.sum_congr rfl fun k _ => ?_)
  rw [shapeCast_apply P h1 (ix2 (⟨n.val * 196 + p.val, hr⟩ : Fin 25088) k) (ix3 n p k) (by
    rw [Shape.rowMajor_val_two, Shape.rowMajor_val_three]; rfl)]

end Cert.PatchEmbed

end
-- ==== Proof.KernelPayload.lean ====
/-
  What the kernel body stores, read as arithmetic. At the ideal instance the two casts to bf16 are the identity, the product
  into a zero accumulator is the plain sum over the contracted axis (axis 1 of BOTH operands: the block's row against the
  weight's row), and the bias vector, viewed as one row and copied down the block's rows, adds `b[h]` to column `h`. So a
  block of 1568 patch rows is sent to the linear layer of those rows.
-/
import proofs.«152682_j72335839199699_1_alg».proof.Proof.Gen.KernelIdeal.Skeleton
import proofs.«152682_j72335839199699_1_alg».proof.Proof.AffineRows
import Idealize.ShloMosaic.Lib.ValueLayout

noncomputable section

namespace Cert.KernelIdeal.Body

open Cert.KernelIdeal Cert.KernelIdeal.Gen Idealize.ShloMosaic Idealize.ShloMosaic.ValueIdx Cert.PatchEmbed

/-- Left operand, axis 0: a free axis, it follows the result's row. -/
theorem lhs_0 (i : S1568x768.Idx) (q : dot_S1568x768_S768x768_S1568x768_1_1_0_0_n_n.contr.Idx) :
    (dot_S1568x768_S768x768_S1568x768_1_1_0_0_n_n.lhsIdx i q 0).val = (i 0).val := by
  unfold DotDims.lhsIdx
  rw [dif_neg (show ¬(0 : Fin S1568x768.rank) ∈ dot_S1568x768_S768x768_S1568x768_1_1_0_0_n_n.lhsBatch by decide), dif_pos (show (0 : Fin S1568x768.rank) ∈ dot_S1568x768_S768x768_S1568x768_1_1_0_0_n_n.lhsNonContracting by decide)]
  rfl
/-- Left operand, axis 1: the contracted axis. -/
theorem lhs_1 (i : S1568x768.Idx) (q : dot_S1568x768_S768x768_S1568x768_1_1_0_0_n_n.contr.Idx) :
    (dot_S1568x768_S768x768_S1568x768_1_1_0_0_n_n.lhsIdx i q 1).val = (q ⟨0, by decide⟩).val :=
  dot_S1568x768_S768x768_S1568x768_1_1_0_0_n_n.lhsIdx_val_of_single rfl i q
/-- Right operand, axis 0: a free axis, it follows the result's column. -/
theorem rhs_0 (i : S1568x768.Idx) (q : dot_S1568x768_S768x768_S1568x768_1_1_0_0_n_n.contr.Idx) :
    (dot_S1568x768_S768x768_S1568x768_1_1_0_0_n_n.rhsIdx i q 0).val = (i 1).val := by
  unfold DotDims.rhsIdx
  rw [dif_neg (show ¬(0 : Fin S768x768.rank) ∈ dot_S1568x768_S768x768_S1568x768_1_1_0_0_n_n.rhsBatch by decide), dif_pos (show (0 : Fin S768x768.rank) ∈ dot_S1568x768_S768x768_S1568x768_1_1_0_0_n_n.rhsNonContracting by decide)]
  rfl
/-- Right operand, axis 1: the contracted axis. -/
theorem rhs_1 (i : S1568x768.Idx) (q : dot_S1568x768_S768x768_S1568x768_1_1_0_0_n_n.contr.Idx) :
    (dot_S1568x768_S768x768_S1568x768_1_1_0_0_n_n.rhsIdx i q 1).val = (q ⟨0, by decide⟩).val :=
  dot_S1568x768_S768x768_S1568x768_1_1_0_0_n_n.rhsIdx_val_of_single rfl i q

/-- The block product into the zero accumulator, at row `r`, column `h`: the sum over `k` of `x[r, k] · w[h, k]`. -/
theorem product_apply (x : FVec Ideal S1568x768 .bf16) (w : FVec Ideal S768x768 .bf16) (r : Fin 1568) (h : Fin 768) :
    matmul dot_S1568x768_S768x768_S1568x768_1_1_0_0_n_n none x w (constant (F := Ideal) S1568x768 .f32 0x00000000#32) (ix2 r h)
      = ∑ k : Fin 768, x (ix2 r k) * w (ix2 h k) := by
  simp only [matmul]
  rw [Ideal.matmul_constant_zero_apply, ← Equiv.sum_comp (ValueIdx.contrEquiv1 dot_S1568x768_S768x768_S1568x768_1_1_0_0_n_n 768 rfl rfl).symm]
  refine Finset.sum_congr rfl fun k _ => ?_
  have hk := ValueIdx.contrEquiv1_symm_val dot_S1568x768_S768x768_S1568x768_1_1_0_0_n_n 768 rfl rfl k
  have el : dot_S1568x768_S768x768_S1568x768_1_1_0_0_n_n.lhsIdx (ix2 r h) ((ValueIdx.contrEquiv1 dot_S1568x768_S768x768_S1568x768_1_1_0_0_n_n 768 rfl rfl).symm k) = ix2 r k := funext fun a => Fin.ext (by
    match a with
    | ⟨0, _⟩ => exact lhs_0 _ _
    | ⟨1, _⟩ => exact (lhs_1 _ _).trans hk)
  have er : dot_S1568x768_S768x768_S1568x768_1_1_0_0_n_n.rhsIdx (ix2 r h) ((ValueIdx.contrEquiv1 dot_S1568x768_S768x768_S1568x768_1_1_0_0_n_n 768 rfl rfl).symm k) = ix2 h k := funext fun a => Fin.ext (by
    match a with
    | ⟨0, _⟩ => exact rhs_0 _ _
    | ⟨1, _⟩ => exact (rhs_1 _ _).trans hk)
  rw [el, er]

/-- The bias as one row, copied down the rows: column `h` of every row holds `b[h]`. -/
theorem bias_apply (b : FVec Ideal S768 .f32) (r : Fin 1568) (h : Fin 768) :
    broadcastTo S1568x768 (shapeCast S1x768 b shapeCasts_S768_S1x768) broadcasts_S1x768_S1568x768 (ix2 r h) = b (ix1 h) := by
  rw [broadcastTo_apply _ broadcasts_S1x768_S1568x768 (ix2 r h) (ix2 (0 : Fin 1) h) (fun a => match a with
    | ⟨0, _⟩ => rfl
    | ⟨1, _⟩ => rfl)]
  exact shapeCast_a_1a_apply b shapeCasts_S768_S1x768 (0 : Fin 1) h

/-- THE PAYLOAD: the stored block is the linear layer of the loaded block's rows. -/
theorem pay_eq (x0 : Vec Ideal S1568x768 .f32) (x1 : Vec Ideal S768x768 .f32) (x2 : Vec Ideal S768 .f32) :
    k0_pay1 (F := Ideal) x0 x1 x2 = affineRows x0 x1 x2 := by
  funext j
  obtain ⟨r, h, rfl⟩ : ∃ (r : Fin 1568) (h : Fin 768), j = ix2 r h := ⟨j 0, j 1, eq_ix2 j⟩
  rw [affineRows_ix2]
  unfold k0_pay1 affineAt
  refine (addf_apply _ _ (ix2 r h)).trans ?_
  refine congrArg₂ (· + ·) ?_ (bias_apply x2 r h)
  refine (product_apply _ _ r h).trans ?_
  refine Finset.sum_congr rfl fun k _ => ?_
  rw [truncf_apply, truncf_apply, shapeCast_self]

end Cert.KernelIdeal.Body

end
-- ==== Proof.KernelBlocks.lean ====
/-
  From blocks to the array. The grid has 16 points; point `t` reads rows 1568 t … 1568 t + 1567 of the flat patch array
  (all 768 columns), the whole weight and the whole bias, and writes back the same rows of the result. The linear layer
  acts row by row, so what point `t` writes back is rows 1568 t … of the layer applied to the WHOLE flat array; the 16
  row blocks tile the 25088 rows (row `i` lies in block `i / 1568`), so after the run the result array is the layer of the
  flat patch array.
-/
import proofs.«152682_j72335839199699_1_alg».proof.Proof.Gen.KernelIdeal.Frame
import proofs.«152682_j72335839199699_1_alg».proof.Proof.KernelPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.PatchEmbed
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The result array as ONE function of the arrays the region finds: the linear layer of the flat patch rows. -/
abbrev rowsOut (c : Dev nD) : Vec Ideal S25088x768 .f32 :=
  affineRows (R := 25088) (V m c main_v3 : Vec Ideal S25088x768 .f32) (V m c main_arg1 : Vec Ideal S768x768 .f32)
    (V m c main_arg2 : Vec Ideal S768 .f32)

/-- One entry of the layer depends on one row of the left operand only: a block whose row `r` is row `R` of the array,
    with the same weight and bias, has the array's entry there. -/
theorem affineAt_of_row (X : Vec Ideal S25088x768 .f32) (W : Vec Ideal S768x768 .f32) (b : Vec Ideal S768 .f32)
    (x0 : Vec Ideal S1568x768 .f32) (x1 : Vec Ideal S768x768 .f32) (x2 : Vec Ideal S768 .f32)
    (r : Fin 1568) (h : Fin 768) (R : Fin 25088)
    (h0 : ∀ k : Fin 768, x0 (ix2 r k) = X (ix2 R k)) (h1 : ∀ k : Fin 768, x1 (ix2 h k) = W (ix2 h k))
    (h2 : x2 (ix1 h) = b (ix1 h)) :
    affineAt x0 x1 x2 r h = affineAt X W b R h := by
  unfold affineAt
  rw [h2]
  exact congrArg (· + b (ix1 h)) (Finset.sum_congr rfl fun k _ => by rw [h0 k, h1 k])

/-- The printed index maps over the 16 points: the patch rows' block moves with the result's, on axis 0 only and at most to
    block 15; the weight's and the bias's block is always the whole array. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 15 :=
  (by decide +kernel : ∀ t : Fin grid0.N, _)

/-- Every one of the 16 row blocks is some point's. -/
theorem idx_onto : ∀ q : Fin 16, ∃ t : Fin cfg0.N, win0_3.index t = ![q.val, 0] :=
  (by decide +kernel : ∀ q : Fin 16, ∃ t : Fin grid0.N, win0_3.index t = ![q.val, 0])

/-- WHAT POINT `t` WRITES BACK is its row block of the layer of the whole flat array. -/
theorem flushed_eq (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3]
  unfold out0_3
  rw [View.canon_unit_zero hz2]
  simp only [View.ld_unit_zero (S := S1568x768) hz2, View.ld_unit_zero (S := S768x768) hz2, View.ld_unit_zero (S := S768) hz1]
  rw [Body.pay_eq]
  obtain ⟨e00, e01, e10, e11, e20, e31, e3le⟩ := idx_facts t
  funext j
  have hj0 : (j 0).val < 1568 := (j 0).isLt
  have hj1 : (j 1).val < 768 := (j 1).isLt
  have hR : win0_3.index t (0 : Fin 2) * 1568 + (j 0).val < 25088 := by omega
  have he : (((cfg0.win 3).blk t).view.emb j : S25088x768.Idx)
      = ix2 (⟨win0_3.index t (0 : Fin 2) * 1568 + (j 0).val, hR⟩ : Fin 25088) (⟨(j 1).val, hj1⟩ : Fin 768) :=
    funext fun a => Fin.ext (by
      match a with
      | ⟨0, _⟩ => show win0_3.index t (0 : Fin 2) * 1568 + 1 * (j 0).val = win0_3.index t (0 : Fin 2) * 1568 + (j 0).val; omega
      | ⟨1, _⟩ => show win0_3.index t (1 : Fin 2) * 768 + 1 * (j 1).val = (j 1).val; omega)
  show affineAt (iblk m c 0 t) (iblk m c 1 t) (iblk m c 2 t) (⟨(j 0).val, hj0⟩ : Fin 1568) (⟨(j 1).val, hj1⟩ : Fin 768)
    = rowsOut m c (((cfg0.win 3).blk t).view.emb j)
  rw [he]
  show _ = affineAt _ _ _ (⟨win0_3.index t (0 : Fin 2) * 1568 + (j 0).val, hR⟩ : Fin 25088) (⟨(j 1).val, hj1⟩ : Fin 768)
  refine affineAt_of_row _ _ _ _ _ _ _ _ _ (fun k => ?_) (fun k => ?_) ?_
  · show V m c main_v3 (((cfg0.win 0).blk t).view.emb (ix2 (⟨(j 0).val, hj0⟩ : Fin 1568) k)) = V m c main_v3 _
    refine congrArg (V m c main_v3) (funext fun a => Fin.ext ?_)
    match a with
    | ⟨0, _⟩ => show win0_0.index t (0 : Fin 2) * 1568 + 1 * (j 0).val = win0_3.index t (0 : Fin 2) * 1568 + (j 0).val; omega
    | ⟨1, _⟩ => show win0_0.index t (1 : Fin 2) * 768 + 1 * k.val = k.val; omega
  · show V m c main_arg1 (((cfg0.win 1).blk t).view.emb (ix2 (⟨(j 1).val, hj1⟩ : Fin 768) k)) = V m c main_arg1 _
    refine congrArg (V m c main_arg1) (funext fun a => Fin.ext ?_)
    match a with
    | ⟨0, _⟩ => show win0_1.index t (0 : Fin 2) * 768 + 1 * (j 1).val = (j 1).val; omega
    | ⟨1, _⟩ => show win0_1.index t (1 : Fin 2) * 768 + 1 * k.val = k.val; omega
  · show V m c main_arg2 (((cfg0.win 2).blk t).view.emb (ix1 (⟨(j 1).val, hj1⟩ : Fin 768))) = V m c main_arg2 _
    refine congrArg (V m c main_arg2) (funext fun a => Fin.ext ?_)
    match a with
    | ⟨0, _⟩ => show win0_2.index t (0 : Fin 1) * 768 + 1 * (j 1).val = (j 1).val; omega

/-- An index of the result array is in point `t`'s block iff each coordinate is in the block's range on its axis. -/
theorem mem_blk (t : Fin cfg0.N) (i : S25088x768.Idx) :
    i ∈ ((cfg0.win 3).blk t).view.set ↔ ∀ a : Fin 2, win0_3.index t a * S1568x768.size a ≤ (i a).val ∧ (i a).val < win0_3.index t a * S1568x768.size a + S1568x768.size a := by
  show i ∈ ((View.whole main_v4).slice (win0_3.rect t)).set ↔ _
  rw [View.set_slice_whole, Rect.mem_set_unit]
  exact Iff.rfl

/-- Every row of the result is in some point's block: row `i` in block `i / 1568`. -/
theorem cover (i : S25088x768.Idx) : ∃ t : Fin cfg0.N, (cfg0.win 3).flush t = true ∧ i ∈ ((cfg0.win 3).blk t).view.set := by
  have hi0 : (i 0).val < 25088 := (i 0).isLt
  have hi1 : (i 1).val < 768 := (i 1).isLt
  obtain ⟨t, ht⟩ := idx_onto ⟨(i 0).val / 1568, by omega⟩
  have q0 : win0_3.index t (0 : Fin 2) = (i 0).val / 1568 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1568 ≤ (i 0).val ∧ (i 0).val < win0_3.index t (0 : Fin 2) * 1568 + 1568; omega
  | ⟨1, _⟩ => show win0_3.index t (1 : Fin 2) * 768 ≤ (i 1).val ∧ (i 1).val < win0_3.index t (1 : Fin 2) * 768 + 768; omega

/-- THE RESULT ARRAY after the run: the linear layer of the flat patch rows as the region found them. -/
theorem final (c : Dev nD) : (dats m 0 c).arrAt 3 cfg0.N = rowsOut m c :=
  (dats m 0 c).arrAt_eq_of_cover 3 (rowsOut m c) (fun t _ => flushed_eq m c t) (cover)

end Cert.KernelIdeal.Blocks

end
-- ==== Proof.KernelRun.lean ====
/-
  The kernel's program, whole. Before the region the host cuts each image into 14 × 14 patches of 3 · 16 · 16 = 768 numbers
  (a reshape, a transpose, a reshape) and lays the 128 · 196 patches flat as 25088 rows; the region leaves the linear layer
  of those rows in the result array; after the region the host cuts the rows back into [128, 196, 768] and puts the class
  token, copied to every image, in front along axis 1. So the program's result is that one function of its four arguments.
-/
import proofs.«152682_j72335839199699_1_alg».proof.Proof.KernelBlocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.PatchEmbed Idealize.ShloMosaic.StableHlo
open Idealize.ShloMosaic.Pipeline (Dat)

variable (m : (ℓ : Loc nD τ sig) → Buf (Elt Ideal) ℓ) (ρ : Dev nD → PrngReg)

/-- The images cut into patches: [128, 3, 224, 224] → [128, 196, 768], patch (i, j) of an image holding its channels'
    16 × 16 squares in the order (channel, row, column). Never opened: both programs apply it. -/
def patches (x0 : Vec Ideal S128x3x224x224 .f32) : Vec Ideal S128x196x768 .f32 :=
  shapeCast S128x196x768 (transpose S128x14x14x3x16x16 [0, 2, 4, 1, 3, 5]
    (shapeCast S128x3x14x16x14x16 x0 shapeCasts_S128x3x224x224_S128x3x14x16x14x16)
    transposes_S128x3x14x16x14x16_S128x14x14x3x16x16_0_2_4_1_3_5) shapeCasts_S128x14x14x3x16x16_S128x196x768

/-- The class token copied to every image and put in front of the hidden states along axis 1. Never opened either. -/
def withCls (cls : Vec Ideal S1x768 .f32) (hid : Vec Ideal S128x196x768 .f32) : Vec Ideal S128x197x768 .f32 :=
  concatenate S128x197x768 1
    [⟨S128x1x768, broadcastInDim S128x1x768 ![0, 1, 2] bcast_S1x1x768_S128x1x768_0_1_2
        (broadcastInDim S1x1x768 ![1, 2] bcast_S1x768_S1x1x768_1_2 cls)⟩,
      ⟨S128x196x768, hid⟩]
    concatenates_S128x1x768_S128x196x768_S128x197x768_d1

/-- The program's result as one function of its arguments. -/
def result (x0 : Vec Ideal S128x3x224x224 .f32) (x1 : Vec Ideal S768x768 .f32) (x2 : Vec Ideal S768 .f32)
    (x3 : Vec Ideal S1x768 .f32) : Vec Ideal S128x197x768 .f32 :=
  withCls x3 (shapeCast S128x196x768
    (affineRows (R := 25088) (shapeCast S25088x768 (patches x0) shapeCasts_S128x196x768_S25088x768) x1 x2)
    shapeCasts_S25088x768_S128x196x768)

/-- The region finds the flat patch rows of the images as launched. -/
theorem V_main_v3 (c : Dev nD) : (V m c main_v3 : Vec Ideal S25088x768 .f32)
    = shapeCast S25088x768 (patches (m ((c : Thread nD τ).loc main_arg0))) shapeCasts_S128x196x768_S25088x768 := by
  show StableHlo.after hostOps0 (fun b => m (c, b)) (Proc.devRef .tc main_v3) = _
  after_results
  rfl

/-- The host lines after the region, from any contents: the class token in front of the result rows cut back. -/
theorem tail_of (A : Valuation τ sig (Elt Ideal)) :
    StableHlo.after hostOps1 A (Proc.devRef .tc main_v8)
      = withCls (A (Proc.devRef .tc main_arg3))
          (shapeCast S128x196x768 (A (Proc.devRef .tc main_v4)) shapeCasts_S25088x768_S128x196x768) := by
  after_results
  rfl

/-- The program's result buffer after the tail, from the region's result array. -/
theorem tail_eq (c : Dev nD) :
    Pipeline.afterTail₀ cfgs (dats m) 0 (V0 m) [hostOps1] c main_v8
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v8) = _
  rw [tail_of]
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have e4 : Pipeline.withArrays (cfgs 0).spec c (V0 m c) (fun w => (dats m 0 c).arrAt w (cfgs 0).N) (Proc.devRef .tc main_v4)
      = affineRows (R := 25088) (shapeCast S25088x768 (patches (m ((c : Thread nD τ).loc main_arg0))) shapeCasts_S128x196x768_S25088x768)
          (m ((c : Thread nD τ).loc main_arg1)) (m ((c : Thread nD τ).loc main_arg2)) := by
    refine ((Pipeline.withArrays_arr spec0 launch0.win.arr_inj c _ _ 3).trans (Blocks.final m c)).trans ?_
    show affineRows (R := 25088) (V m c main_v3) (V m c main_arg1) (V m c main_arg2) = _
    rw [V_main_v3 m c, V_main_arg1 m c, V_main_arg2 m c]
  rw [e3, e4]
  rfl

/-- THE RUN, READ: every weakly fair execution ends with the result buffer at `result` of the arguments as launched, the
    arguments unchanged. -/
theorem run : θ_run defs (onTc (τ := τ) (main (F := Ideal))) ⟨m, fun _ => 0, ρ⟩ fun r => ∀ c : Dev nD,
      r.2.mem ((c.tc : Thread nD τ).loc main_v8)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.ReferenceLinear.lean ====
/-
  The reference's hidden states, read as the same arithmetic. The einsum contracts the last axis of the patches
  [128, 196, 768] with the second axis of the weight, entry (n, p, h) being `Σ_k patches[n, p, k] · W[h, k]`, and the bias is
  broadcast along the last axis. That is the linear layer of the patches laid flat as 25088 rows, cut back into
  [128, 196, 768] (`unflatten_affineRows`).
-/
import proofs.«152682_j72335839199699_1_alg».proof.Proof.Gen.ReferenceIdeal.Read
import proofs.«152682_j72335839199699_1_alg».proof.Proof.AffineRows

noncomputable section

namespace Cert.ReferenceIdeal.Linear

open Cert.ReferenceIdeal Cert.ReferenceIdeal.Gen Cert.ReferenceIdeal.Read Idealize.ShloMosaic Idealize.ShloMosaic.ValueIdx
open Cert.PatchEmbed

/-- The reference's projection plus bias is the layer of the flattened patches, unflattened. -/
theorem hidden_eq (x0 : (⟨S128x3x224x224, .f32⟩ : BufTy).Contents (Elt Ideal)) (x1 : (⟨S768x768, .f32⟩ : BufTy).Contents (Elt Ideal))
    (x2 : (⟨S768, .f32⟩ : BufTy).Contents (Elt Ideal))
    (h1 : (⟨3, ![128, 196, 768]⟩ : Shape).ShapeCasts ⟨2, ![25088, 768]⟩)
    (h2 : (⟨2, ![25088, 768]⟩ : Shape).ShapeCasts ⟨3, ![128, 196, 768]⟩) :
    val_main_v6 (F := Ideal) x0 x1 x2
      = shapeCast ⟨3, ![128, 196, 768]⟩ (affineRows (shapeCast ⟨2, ![25088, 768]⟩ (val_main_v2 (F := Ideal) x0) h1) x1 x2) h2 := by
  funext i
  obtain ⟨n, p, h, rfl⟩ : ∃ (n : Fin 128) (p : Fin 196) (h : Fin 768), i = ix3 n p h := ⟨i 0, i 1, i 2, eq_ix3 i⟩
  refine Eq.trans ?_ (unflatten_affineRows (val_main_v2 (F := Ideal) x0) x1 x2 h1 h2 n p h).symm
  rw [val_main_v6_apply, val_main_v3_apply, val_main_v5_apply, val_main_v4_apply]
  have el : ∀ k : Fin 768, lidx_main_v3 (ix3 n p h) k = ix3 n p k := fun k => funext fun a => Fin.ext (by
    match a with
    | ⟨0, _⟩ => rfl
    | ⟨1, _⟩ => rfl
    | ⟨2, _⟩ => rfl)
  have er : ∀ k : Fin 768, ridx_main_v3 (ix3 n p h) k = ix2 h k := fun k => funext fun a => Fin.ext (by
    match a with
    | ⟨0, _⟩ => rfl
    | ⟨1, _⟩ => rfl)
  have eb : idx_main_v4 (idx_main_v5 (ix3 n p h)) = ix1 h := funext fun a => Fin.ext (by
    match a with
    | ⟨0, _⟩ => rfl)
  rw [eb]
  refine congrArg (· + x2 (ix1 h)) (Finset.sum_congr rfl fun k _ => ?_)
  rw [el k, er k]

end Cert.ReferenceIdeal.Linear

end
-- ==== Proof.lean ====
/-
  A ViT patch embedding. Both programs cut each of 128 images into 14 × 14 patches of 3 · 16 · 16 = 768 numbers, send every
  patch through one linear layer (weight stored [out, in], so the contraction is over the second axis of both operands; bias
  added per output feature), and put the class token in front of each image's 196 hidden states.

  The kernel lays the 128 · 196 patches flat as 25088 rows and computes the layer 1568 rows at a time on a grid of 16
  points — a product into a zero accumulator with both operands cast to bf16 first — and the host reshapes the rows back
  to [128, 196, 768]. The reference contracts the last axis of the [128, 196, 768] patches with the weight directly. Over
  the extended reals a cast is the identity and the product into zero is the plain sum, so both compute, at (n, 1 + p, h),
  `Σ_k patch[n, p, k] · W[h, k] + b[h]`: row 196 n + p of the flat array IS patch (n, p). Nothing but re-indexing joins the
  two sides: no distributivity, no cancelling, so the finiteness precondition is never opened. The patch extraction and
  the class-token concatenation are the same operations in both programs and are carried as opaque functions.

  The pieces: AffineRows (the layer on plain arrays, and flatten–apply–unflatten as the layer along the last axis);
  KernelPayload (the kernel body's stored block is the layer of its loaded rows); KernelBlocks (the 16 row blocks tile the
  result array, which therefore holds the layer of the flat patches); KernelRun (the host operations around the region:
  the program's result as one function of its arguments); ReferenceLinear (the reference's hidden states are that same
  function). The three frames are the programs' runs with the value dropped; the idealization rewrote nothing, so
  `preserves` is trivial.
-/
import proofs.«152682_j72335839199699_1_alg».proof.Defs
import proofs.«152682_j72335839199699_1_alg».proof.Proof.Gen.Kernel
import proofs.«152682_j72335839199699_1_alg».proof.Proof.Gen.Kernel.Skeleton
import proofs.«152682_j72335839199699_1_alg».proof.Proof.Gen.Kernel.Launch
import proofs.«152682_j72335839199699_1_alg».proof.Proof.Gen.Kernel.Points
import proofs.«152682_j72335839199699_1_alg».proof.Proof.Gen.Kernel.Frame
import proofs.«152682_j72335839199699_1_alg».proof.Proof.Gen.KernelIdeal
import proofs.«152682_j72335839199699_1_alg».proof.Proof.Gen.KernelIdeal.Skeleton
import proofs.«152682_j72335839199699_1_alg».proof.Proof.Gen.KernelIdeal.Launch
import proofs.«152682_j72335839199699_1_alg».proof.Proof.Gen.KernelIdeal.Points
import proofs.«152682_j72335839199699_1_alg».proof.Proof.Gen.KernelIdeal.Frame
import proofs.«152682_j72335839199699_1_alg».proof.Proof.Gen.ReferenceIdeal
import proofs.«152682_j72335839199699_1_alg».proof.Proof.Gen.Pre_finite_inputs
import proofs.«152682_j72335839199699_1_alg».proof.Proof.Gen.ReferenceIdeal.Run
import proofs.«152682_j72335839199699_1_alg».proof.Proof.Gen.ReferenceIdeal.Read
import proofs.«152682_j72335839199699_1_alg».proof.Proof.KernelRun
import proofs.«152682_j72335839199699_1_alg».proof.Proof.ReferenceLinear
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the kernel program's function of the same four arrays: the class token in front of the
    hidden states on both sides, the same patches going in, and the hidden states equal by `hidden_eq`. -/
theorem reference_eq (x0 : Vec Ideal Cert.KernelIdeal.S128x3x224x224 .f32) (x1 : Vec Ideal Cert.KernelIdeal.S768x768 .f32)
    (x2 : Vec Ideal Cert.KernelIdeal.S768 .f32) (x3 : Vec Ideal Cert.KernelIdeal.S1x768 .f32) :
    Cert.ReferenceIdeal.Read.val_main_v9 (F := Ideal) x0 x1 x2 x3 = Cert.KernelIdeal.Whole.result x0 x1 x2 x3 := by
  unfold Cert.ReferenceIdeal.Read.val_main_v9
  rw [Cert.ReferenceIdeal.Linear.hidden_eq x0 x1 x2 Cert.KernelIdeal.Facts₀.shapeCasts_S128x196x768_S25088x768
    Cert.KernelIdeal.Facts₀.shapeCasts_S25088x768_S128x196x768]
  unfold Cert.KernelIdeal.Whole.result Cert.KernelIdeal.Whole.withCls Cert.KernelIdeal.Whole.patches
    Cert.ReferenceIdeal.Read.val_main_v8 Cert.ReferenceIdeal.Read.val_main_v7 Cert.ReferenceIdeal.Read.val_main_v2
    Cert.ReferenceIdeal.Read.val_main_v1 Cert.ReferenceIdeal.Read.val_main_v0
  rfl

/-- From memories agreeing on the four arguments both programs end with the same result array. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v9_eq _ _ _ _).trans (reference_eq _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
